-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel

variable [Facts]

def fn {F : FTy → Type} [FloatOps F] (main_arg0 : FVec F S32x3x1024x1024 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  main_v3
-- ==== Kernel.lean ====
abbrev S32x3x1024x1024 : Shape := ⟨4, ![32, 3, 1024, 1024]⟩
abbrev S4x1024 : Shape := ⟨2, ![4, 1024]⟩
abbrev S1024x4 : Shape := ⟨2, ![1024, 4]⟩
abbrev S32x3x4x4 : Shape := ⟨4, ![32, 3, 4, 4]⟩
abbrev S1x1x1024x1024 : Shape := ⟨4, ![1, 1, 1024, 1024]⟩
abbrev S1x1x4x4 : Shape := ⟨4, ![1, 1, 4, 4]⟩
abbrev S1024x1024 : Shape := ⟨2, ![1024, 1024]⟩
abbrev S4x4 : Shape := ⟨2, ![4, 4]⟩
abbrev S32x3x16 : Shape := ⟨3, ![32, 3, 16]⟩
abbrev S_ : Shape := ⟨0, ![]⟩
abbrev S32x3 : Shape := ⟨2, ![32, 3]⟩
abbrev S32x3x1 : Shape := ⟨3, ![32, 3, 1]⟩
abbrev S32 : Shape := ⟨1, ![32]⟩

abbrev nBuf : Space → Nat
  | .hbm => 44
  | .vmem => 6
  | .smem => 0
  | _ => 0

abbrev bufTy : (tb : Table) → Fin (tcTables nBuf tb) → BufTy
  | .hbm, ⟨0, _⟩ => ⟨S32x3x1024x1024, .f32⟩
  | .hbm, ⟨1, _⟩ => ⟨S4x1024, .f32⟩
  | .hbm, ⟨2, _⟩ => ⟨S1024x4, .f32⟩
  | .hbm, ⟨3, _⟩ => ⟨S32x3x4x4, .f32⟩
  | .hbm, ⟨4, _⟩ => ⟨S32x3x16, .f32⟩
  | .hbm, ⟨5, _⟩ => ⟨S_, .i32⟩
  | .hbm, ⟨6, _⟩ => ⟨S_, .f32⟩
  | .hbm, ⟨7, _⟩ => ⟨S32x3, .f32⟩
  | .hbm, ⟨8, _⟩ => ⟨S32x3x1, .f32⟩
  | .hbm, ⟨9, _⟩ => ⟨S_, .f32⟩
  | .hbm, ⟨10, _⟩ => ⟨S32x3x1, .f32⟩
  | .hbm, ⟨11, _⟩ => ⟨S32x3x1, .f32⟩
  | .hbm, ⟨12, _⟩ => ⟨S32x3x16, .f32⟩
  | .hbm, ⟨13, _⟩ => ⟨S32x3x16, .f32⟩
  | .hbm, ⟨14, _⟩ => ⟨S32x3x16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x3, .f32⟩
  | .hbm, ⟨20, _⟩ => ⟨S32x3, .f32⟩
  | .hbm, ⟨21, _⟩ => ⟨S32x3, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S_, .f32⟩
  | .hbm, ⟨26, _⟩ => ⟨S32x3, .f32⟩
  | .hbm, ⟨27, _⟩ => ⟨S32x3, .f32⟩
  | .hbm, ⟨28, _⟩ => ⟨S32x3, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S4x1024, .f32⟩
  | .local _ .vmem, ⟨3, _⟩ => ⟨S1024x4, .f32⟩
  | .local _ .vmem, ⟨4, _⟩ => ⟨S1x1x4x4, .f32⟩
  | .local _ .vmem, ⟨5, _⟩ => ⟨S1x1x4x4, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_cst_0 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_cst_1 : Ref sig .tc := ⟨.hbm, 16, rfl⟩
abbrev main_call0_call0_v8 : Ref sig .tc := ⟨.hbm, 17, rfl⟩
abbrev main_call0_call0_cst_2 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_cst_3 : Ref sig .tc := ⟨.hbm, 22, rfl⟩
abbrev main_call0_call0_v12 : Ref sig .tc := ⟨.hbm, 23, rfl⟩
abbrev main_call0_call0_cst_4 : Ref sig .tc := ⟨.hbm, 24, rfl⟩
abbrev main_call0_call0_call0_v0 : Ref sig .tc := ⟨.hbm, 25, rfl⟩
abbrev main_call0_call0_call0_v1 : Ref sig .tc := ⟨.hbm, 26, rfl⟩
abbrev main_call0_v0 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_cst_2 : Ref sig .tc := ⟨.hbm, 31, rfl⟩
abbrev main_v4 : Ref sig .tc := ⟨.hbm, 32, rfl⟩
abbrev main_v5 : Ref sig .tc := ⟨.hbm, 33, rfl⟩
abbrev main_cst_3 : Ref sig .tc := ⟨.hbm, 34, rfl⟩
abbrev main_v6 : Ref sig .tc := ⟨.hbm, 35, rfl⟩
abbrev main_v7 : Ref sig .tc := ⟨.hbm, 36, rfl⟩
abbrev main_cst_4 : Ref sig .tc := ⟨.hbm, 37, rfl⟩
abbrev main_v8 : Ref sig .tc := ⟨.hbm, 38, rfl⟩
abbrev main_v9 : Ref sig .tc := ⟨.hbm, 39, rfl⟩
abbrev main_cst_5 : Ref sig .tc := ⟨.hbm, 40, rfl⟩
abbrev main_v10 : Ref sig .tc := ⟨.hbm, 41, rfl⟩
abbrev main_cst_6 : Ref sig .tc := ⟨.hbm, 42, rfl⟩
abbrev main_v11 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S4x1024_S4x1024_0_0 : ∀ a, (![0, 0] : Fin 2 → Nat) a + S4x1024.size a ≤ S4x1024.size a
  h_S4x1024 : 0 < S4x1024.numel
  inb_S1024x4_S1024x4_0_0 : ∀ a, (![0, 0] : Fin 2 → Nat) a + S1024x4.size a ≤ S1024x4.size a
  h_S1024x4 : 0 < S1024x4.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S4x4_S1x1x4x4 : S4x4.ShapeCasts S1x1x4x4
  inb_S1x1x4x4_S1x1x4x4_0_0_0_0 : ∀ a, (![0, 0, 0, 0] : Fin 4 → Nat) a + S1x1x4x4.size a ≤ S1x1x4x4.size a
  h_S1x1x4x4 : 0 < S1x1x4x4.numel
  shapeCasts_S32x3x4x4_S32x3x16 : S32x3x4x4.ShapeCasts S32x3x16
  reducesTo_S32x3x16_S32x3_d2 : S32x3x16.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x16_0_1_2 : S32x3x1.BroadcastsInDim S32x3x16 (![0, 1, 2] : Fin 3 → Fin S32x3x16.rank)
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  reducesTo_S32_S_d0 : S32.ReducesTo [0] S_
  dot_S4x1024_S1024x1024_S4x1024_1_0_0_1_n_n_wf : DotDims.WF S4x1024 S1024x1024 S4x1024 [1] [0] [0] [1] [] []
  dot_S4x1024_S1024x4_S4x4_1_0_0_1_n_n_wf : DotDims.WF S4x1024 S1024x4 S4x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x3x1024x1024.size a
  hwx0_0 : ∀ i : grid0.Coords, EltTy.bits .f32 = 32 ∨ (Rect.block (s := S32x3x1024x1024) S1x1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x1024.size a
  hwx0_1 : ∀ i : grid0.Coords, EltTy.bits .f32 = 32 ∨ (Rect.block (s := S4x1024) S4x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S1024x4.size a
  hwx0_2 : ∀ i : grid0.Coords, EltTy.bits .f32 = 32 ∨ (Rect.block (s := S1024x4) S1024x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4x4.size a ≤ S32x3x4x4.size a
  hwx0_3 : ∀ i : grid0.Coords, EltTy.bits .f32 = 32 ∨ (Rect.block (s := S32x3x4x4) S1x1x4x4.size (cc0_transform_3 i) (hinb0_3 i)).WholeWords (EltTy.packing .f32)

variable [Facts₀]

def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf
def dot_S4x1024_S1024x4_S4x4_1_0_0_1_n_n : DotDims S4x1024 S1024x4 S4x4 where
  lhsContracting := [1]
  rhsContracting := [0]
  lhsNonContracting := [0]
  rhsNonContracting := [1]
  lhsBatch := []
  rhsBatch := []
  wf := dot_S4x1024_S1024x4_S4x4_1_0_0_1_n_n_wf

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S4x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S1024x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x1024x1024 : Shape := ⟨4, ![32, 3, 1024, 1024]⟩
abbrev S32x3x4x256x4x256 : Shape := ⟨6, ![32, 3, 4, 256, 4, 256]⟩
abbrev S_ : Shape := ⟨0, ![]⟩
abbrev S32x3x4x4 : Shape := ⟨4, ![32, 3, 4, 4]⟩
abbrev S32x3x16 : Shape := ⟨3, ![32, 3, 16]⟩
abbrev S32x3 : Shape := ⟨2, ![32, 3]⟩
abbrev S32x3x1 : Shape := ⟨3, ![32, 3, 1]⟩
abbrev S32 : Shape := ⟨1, ![32]⟩

abbrev nBuf : Space → Nat
  | .hbm => 47
  | .vmem => 0
  | .smem => 0
  | _ => 0

abbrev bufTy : (tb : Table) → Fin (tcTables nBuf tb) → BufTy
  | .hbm, ⟨0, _⟩ => ⟨S32x3x1024x1024, .f32⟩
  | .hbm, ⟨1, _⟩ => ⟨S32x3x4x256x4x256, .f32⟩
  | .hbm, ⟨2, _⟩ => ⟨S_, .f32⟩
  | .hbm, ⟨3, _⟩ => ⟨S32x3x4x4, .f32⟩
  | .hbm, ⟨4, _⟩ => ⟨S_, .f32⟩
  | .hbm, ⟨5, _⟩ => ⟨S32x3x4x4, .f32⟩
  | .hbm, ⟨6, _⟩ => ⟨S32x3x4x4, .f32⟩
  | .hbm, ⟨7, _⟩ => ⟨S32x3x16, .f32⟩
  | .hbm, ⟨8, _⟩ => ⟨S_, .i32⟩
  | .hbm, ⟨9, _⟩ => ⟨S_, .f32⟩
  | .hbm, ⟨10, _⟩ => ⟨S32x3, .f32⟩
  | .hbm, ⟨11, _⟩ => ⟨S32x3x1, .f32⟩
  | .hbm, ⟨12, _⟩ => ⟨S_, .f32⟩
  | .hbm, ⟨13, _⟩ => ⟨S32x3x1, .f32⟩
  | .hbm, ⟨14, _⟩ => ⟨S32x3x1, .f32⟩
  | .hbm, ⟨15, _⟩ => ⟨S32x3x16, .f32⟩
  | .hbm, ⟨16, _⟩ => ⟨S32x3x16, .f32⟩
  | .hbm, ⟨17, _⟩ => ⟨S32x3x16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S32x3, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S32x3, .f32⟩
  | .hbm, ⟨30, _⟩ => ⟨S32x3, .f32⟩
  | .hbm, ⟨31, _⟩ => ⟨S32x3, .f32⟩
  | .hbm, ⟨32, _⟩ => ⟨S_, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_cst_3 : Ref sig .tc := ⟨.hbm, 25, rfl⟩
abbrev main_call0_call0_v12 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_cst_2 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_v9 : Ref sig .tc := ⟨.hbm, 38, rfl⟩
abbrev main_v10 : Ref sig .tc := ⟨.hbm, 39, rfl⟩
abbrev main_cst_4 : Ref sig .tc := ⟨.hbm, 40, rfl⟩
abbrev main_v11 : Ref sig .tc := ⟨.hbm, 41, rfl⟩
abbrev main_v12 : Ref sig .tc := ⟨.hbm, 42, rfl⟩
abbrev main_cst_5 : Ref sig .tc := ⟨.hbm, 43, rfl⟩
abbrev main_v13 : Ref sig .tc := ⟨.hbm, 44, rfl⟩
abbrev main_cst_6 : Ref sig .tc := ⟨.hbm, 45, rfl⟩
abbrev main_v14 : Ref sig .tc := ⟨.hbm, 46, rfl⟩

abbrev nD : Nat := 1
abbrev τ : Topo := Topo.v7x

variable {F : FTy → Type} [FloatOps F]

class Facts₀ : Prop where
  shapeCasts_S32x3x1024x1024_S32x3x4x256x4x256 : S32x3x1024x1024.ShapeCasts S32x3x4x256x4x256
  reducesTo_S32x3x4x256x4x256_S32x3x4x4_d3_5 : S32x3x4x256x4x256.ReducesTo [3, 5] S32x3x4x4
  h_S_ : 0 < S_.numel
  bcast_S_S32x3x4x4 : S_.BroadcastsInDim S32x3x4x4 (![] : Fin 0 → Fin S32x3x4x4.rank)
  shapeCasts_S32x3x4x4_S32x3x16 : S32x3x4x4.ShapeCasts S32x3x16
  reducesTo_S32x3x16_S32x3_d2 : S32x3x16.ReducesTo [2] S32x3
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x16_0_1_2 : S32x3x1.BroadcastsInDim S32x3x16 (![0, 1, 2] : Fin 3 → Fin S32x3x16.rank)
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Payload.lean ====
/-
  The arithmetic of the pooling kernel's body, read at one output index. The body holds a 4 × 1024 weight matrix
  P, a 1024 × 4 weight matrix Q and one 1024 × 1024 plane X carried with two leading unit axes. It forms the
  product P · X (4 × 1024), multiplies that by Q (4 × 4), and puts the two unit axes back. At the extended reals
  a product into a zero accumulator is the plain sum over the contracted axis, and dropping or adding unit axes
  only renames indices, so the entry (g, g') of the result is

      ∑ w, (∑ h, P(g, h) · X(h, w)) · Q(w, g').

  The file proves exactly this, in four steps: how each product's operand indices depend on the output index
  and the contraction position (one statement per operand axis); each product read at an index as a sum over
  Fin 1024; the two reshapes read at an index; and last the composition.
-/
import proofs.«161409_j70557722739343_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Pool.Payload

open Idealize.ShloMosaic Idealize.ShloMosaic.ValueIdx Cert.KernelIdeal Cert.KernelIdeal.Gen

/-! ## The first product, (4 × 1024) · (1024 × 1024): operand indices axis by axis -/

/-- The left operand's row is the output's row. -/
theorem lhs_first_0 (j : S4x1024.Idx) (k : dot_S4x1024_S1024x1024_S4x1024_1_0_0_1_n_n.contr.Idx) :
    (dot_S4x1024_S1024x1024_S4x1024_1_0_0_1_n_n.lhsIdx j k 0).val = (j 0).val := rfl

/-- The left operand's column is the contraction position. -/
theorem lhs_first_1 (j : S4x1024.Idx) (k : dot_S4x1024_S1024x1024_S4x1024_1_0_0_1_n_n.contr.Idx) :
    (dot_S4x1024_S1024x1024_S4x1024_1_0_0_1_n_n.lhsIdx j k 1).val = (k ⟨0, by decide⟩).val := rfl

/-- The right operand's row is the contraction position. -/
theorem rhs_first_0 (j : S4x1024.Idx) (k : dot_S4x1024_S1024x1024_S4x1024_1_0_0_1_n_n.contr.Idx) :
    (dot_S4x1024_S1024x1024_S4x1024_1_0_0_1_n_n.rhsIdx j k 0).val = (k ⟨0, by decide⟩).val := rfl

/-- The right operand's column is the output's column. -/
theorem rhs_first_1 (j : S4x1024.Idx) (k : dot_S4x1024_S1024x1024_S4x1024_1_0_0_1_n_n.contr.Idx) :
    (dot_S4x1024_S1024x1024_S4x1024_1_0_0_1_n_n.rhsIdx j k 1).val = (j 1).val := rfl

/-- The first product at entry (g, w): the sum over the shared axis of row g of the left factor against column w of
    the right one. The contraction index has one axis of extent 1024; the sum is re-indexed along the bijection
    between that index set and Fin 1024, and the operand indices are then identified coordinate by coordinate. -/
theorem first_apply (A : FVec Ideal S4x1024 .f32) (B : FVec Ideal S1024x1024 .f32) (g : Fin 4) (w : Fin 1024) :
    matmul (F := Ideal) dot_S4x1024_S1024x1024_S4x1024_1_0_0_1_n_n (some .fp32) A B
        (constant (F := Ideal) S4x1024 .f32 0x00000000#32) (ix2 g w)
      = ∑ h : Fin 1024, A (ix2 g h) * B (ix2 h w) := by
  simp only [matmul]
  rw [Ideal.matmul_constant_zero_apply,
    ← Equiv.sum_comp (contrEquiv1 dot_S4x1024_S1024x1024_S4x1024_1_0_0_1_n_n 1024 rfl rfl).symm]
  refine Finset.sum_congr rfl fun h _ => ?_
  have hk := contrEquiv1_symm_val dot_S4x1024_S1024x1024_S4x1024_1_0_0_1_n_n 1024 rfl rfl h
  have hl : dot_S4x1024_S1024x1024_S4x1024_1_0_0_1_n_n.lhsIdx (ix2 g w)
      ((contrEquiv1 dot_S4x1024_S1024x1024_S4x1024_1_0_0_1_n_n 1024 rfl rfl).symm h) = ix2 g h := by
    funext a
    apply Fin.ext
    match a with
    | ⟨0, _⟩ => exact lhs_first_0 _ _
    | ⟨1, _⟩ => exact (lhs_first_1 _ _).trans hk
  have hr : dot_S4x1024_S1024x1024_S4x1024_1_0_0_1_n_n.rhsIdx (ix2 g w)
      ((contrEquiv1 dot_S4x1024_S1024x1024_S4x1024_1_0_0_1_n_n 1024 rfl rfl).symm h) = ix2 h w := by
    funext a
    apply Fin.ext
    match a with
    | ⟨0, _⟩ => exact (rhs_first_0 _ _).trans hk
    | ⟨1, _⟩ => exact rhs_first_1 _ _
  rw [hl, hr]

/-! ## The second product, (4 × 1024) · (1024 × 4): operand indices axis by axis -/

/-- The left operand's row is the output's row. -/
theorem lhs_second_0 (j : S4x4.Idx) (k : dot_S4x1024_S1024x4_S4x4_1_0_0_1_n_n.contr.Idx) :
    (dot_S4x1024_S1024x4_S4x4_1_0_0_1_n_n.lhsIdx j k 0).val = (j 0).val := rfl

/-- The left operand's column is the contraction position. -/
theorem lhs_second_1 (j : S4x4.Idx) (k : dot_S4x1024_S1024x4_S4x4_1_0_0_1_n_n.contr.Idx) :
    (dot_S4x1024_S1024x4_S4x4_1_0_0_1_n_n.lhsIdx j k 1).val = (k ⟨0, by decide⟩).val := rfl

/-- The right operand's row is the contraction position. -/
theorem rhs_second_0 (j : S4x4.Idx) (k : dot_S4x1024_S1024x4_S4x4_1_0_0_1_n_n.contr.Idx) :
    (dot_S4x1024_S1024x4_S4x4_1_0_0_1_n_n.rhsIdx j k 0).val = (k ⟨0, by decide⟩).val := rfl

/-- The right operand's column is the output's column. -/
theorem rhs_second_1 (j : S4x4.Idx) (k : dot_S4x1024_S1024x4_S4x4_1_0_0_1_n_n.contr.Idx) :
    (dot_S4x1024_S1024x4_S4x4_1_0_0_1_n_n.rhsIdx j k 1).val = (j 1).val := rfl

/-- The second product at entry (g, g'): the sum over the shared axis of row g of the left factor against column g'
    of the right one, by the same re-indexing. -/
theorem second_apply (A : FVec Ideal S4x1024 .f32) (B : FVec Ideal S1024x4 .f32) (g g' : Fin 4) :
    matmul (F := Ideal) dot_S4x1024_S1024x4_S4x4_1_0_0_1_n_n (some .fp32) A B
        (constant (F := Ideal) S4x4 .f32 0x00000000#32) (ix2 g g')
      = ∑ w : Fin 1024, A (ix2 g w) * B (ix2 w g') := by
  simp only [matmul]
  rw [Ideal.matmul_constant_zero_apply,
    ← Equiv.sum_comp (contrEquiv1 dot_S4x1024_S1024x4_S4x4_1_0_0_1_n_n 1024 rfl rfl).symm]
  refine Finset.sum_congr rfl fun w _ => ?_
  have hk := contrEquiv1_symm_val dot_S4x1024_S1024x4_S4x4_1_0_0_1_n_n 1024 rfl rfl w
  have hl : dot_S4x1024_S1024x4_S4x4_1_0_0_1_n_n.lhsIdx (ix2 g g')
      ((contrEquiv1 dot_S4x1024_S1024x4_S4x4_1_0_0_1_n_n 1024 rfl rfl).symm w) = ix2 g w := by
    funext a
    apply Fin.ext
    match a with
    | ⟨0, _⟩ => exact lhs_second_0 _ _
    | ⟨1, _⟩ => exact (lhs_second_1 _ _).trans hk
  have hr : dot_S4x1024_S1024x4_S4x4_1_0_0_1_n_n.rhsIdx (ix2 g g')
      ((contrEquiv1 dot_S4x1024_S1024x4_S4x4_1_0_0_1_n_n 1024 rfl rfl).symm w) = ix2 w g' := by
    funext a
    apply Fin.ext
    match a with
    | ⟨0, _⟩ => exact (rhs_second_0 _ _).trans hk
    | ⟨1, _⟩ => exact rhs_second_1 _ _
  rw [hl, hr]

/-! ## The two reshapes at an index

A reshape keeps the row-major position. With both leading coordinates 0 on unit axes, position
((0 · 1 + 0) · m + a) · n + b of the rank-4 array is position a · n + b of the matrix. -/

/-- Dropping the plane's two unit axes: entry (h, w) of the matrix is entry (0, 0, h, w) of the plane. -/
theorem plane_apply (X : FVec Ideal S1x1x1024x1024 .f32) (hc : S1x1x1024x1024.ShapeCasts S1024x1024) (h w : Fin 1024) :
    shapeCast S1024x1024 X hc (ix2 h w) = X (ix4 (0 : Fin 1) (0 : Fin 1) h w) := by
  refine shapeCast_apply X hc (ix2 h w) (ix4 (0 : Fin 1) (0 : Fin 1) h w) ?_
  rw [Shape.rowMajor_val_two, Shape.rowMajor_val_four]
  show ((0 * 1 + 0) * 1024 + h.val) * 1024 + w.val = h.val * 1024 + w.val
  omega

/-- Adding two unit axes to the 4 × 4 result: entry (0, 0, g, g') is entry (g, g') of the matrix. -/
theorem result_apply (Y : FVec Ideal S4x4 .f32) (hc : S4x4.ShapeCasts S1x1x4x4) (g g' : Fin 4) :
    shapeCast S1x1x4x4 Y hc (ix4 (0 : Fin 1) (0 : Fin 1) g g') = Y (ix2 g g') := by
  refine shapeCast_apply Y hc (ix4 (0 : Fin 1) (0 : Fin 1) g g') (ix2 g g') ?_
  rw [Shape.rowMajor_val_two, Shape.rowMajor_val_four]
  show g.val * 4 + g'.val = ((0 * 1 + 0) * 4 + g.val) * 4 + g'.val
  omega

/-! ## The body's value at an output entry -/

/-- Entry (0, 0, g, g') of the body's value is ∑ w, (∑ h, P(g, h) · X(0, 0, h, w)) · Q(w, g'): the outer reshape
    reads the second product at (g, g'), that product is a sum over w whose left factor is the first product at
    (g, w), itself a sum over h whose right factor is the inner reshape at (h, w). -/
theorem pay_apply (x1 : Vec Ideal S4x1024 .f32) (x2 : Vec Ideal S1024x4 .f32) (x0 : Vec Ideal S1x1x1024x1024 .f32) (g g' : Fin 4) :
    k0_pay1 (F := Ideal) x1 x2 x0 (ix4 (0 : Fin 1) (0 : Fin 1) g g')
      = ∑ w : Fin 1024, (∑ h : Fin 1024, x1 (ix2 g h) * x0 (ix4 (0 : Fin 1) (0 : Fin 1) h w)) * x2 (ix2 w g') := by
  unfold k0_pay1
  refine (result_apply _ _ g g').trans ?_
  refine (second_apply _ _ g g').trans ?_
  refine Finset.sum_congr rfl fun w _ => ?_
  refine congrArg (· * x2 (ix2 w g')) ?_
  refine (first_apply _ _ g w).trans ?_
  refine Finset.sum_congr rfl fun h _ => ?_
  refine congrArg (x1 (ix2 g h) * ·) ?_
  exact plane_apply _ _ h w

end Cert.Pool.Payload

end
-- ==== Proof.TableWords.lean ====
/-
  The two literal tables of the kernel's program, entry by entry. Each holds 4096 words in row-major order. In the
  first (4 rows of 1024) entry n is the word of 1/256 when its column n mod 1024 lies in the row's group of 256
  columns, and the zero word otherwise; in the second (1024 rows of 4) entry n is the word of 1/256 when its row n / 4
  lies in the group of its column n mod 4. Both facts are checked by evaluating all 4096 entries.
-/
import proofs.«161409_j70557722739343_1_alg».proof.KernelIdeal

namespace Cert.Pool.Tables

open Cert.KernelIdeal

theorem rowTable_fin : ∀ n : Fin 4096, lit0t n.val = if n.val % 1024 / 256 = n.val / 1024 then 0x3B800000#32 else 0#32 := by
  decide +kernel

theorem colTable_fin : ∀ n : Fin 4096, lit1t n.val = if n.val / 4 / 256 = n.val % 4 then 0x3B800000#32 else 0#32 := by
  decide +kernel

/-- Entry `n` of the 4 × 1024 table. -/
theorem rowTable_eq (n : Nat) (h : n < 4096) :
    lit0t n = if n % 1024 / 256 = n / 1024 then 0x3B800000#32 else 0#32 := rowTable_fin ⟨n, h⟩

/-- Entry `n` of the 1024 × 4 table. -/
theorem colTable_eq (n : Nat) (h : n < 4096) :
    lit1t n = if n / 4 / 256 = n % 4 then 0x3B800000#32 else 0#32 := colTable_fin ⟨n, h⟩

end Cert.Pool.Tables
-- ==== Proof.PoolLaw.lean ====
/-
  Region averaging, two ways. A 1024 × 1024 plane is cut into a 4 × 4 grid of 256 × 256 regions. One way to
  average region (g, g') is to sum its 65536 entries and divide by 65536. The other is to multiply the plane on the
  left by a 4 × 1024 matrix whose row g holds 1/256 on the columns of row-group g and 0 elsewhere, and on the right by
  the 1024 × 4 matrix built the same way from the column groups. Over the reals the two agree: the zero weights drop
  every row and column outside the region, and 1/256 · 1/256 = 1/65536 leaves the sum by distributivity. Over the
  extended reals the same holds as soon as every entry of the plane is a real number, which is where the law is used.
-/
import Idealize.ShloMosaic.PureOps.Ideal

noncomputable section

namespace Cert.Pool

open Idealize.ShloMosaic

/-- The averaging weight of group `g` at position `h`: 1/256 when `h` lies in the group's 256 positions, else 0. -/
def wgt (g : Fin 4) (h : Fin 1024) : ℝ := if h.val / 256 = g.val then 1 / 256 else 0

/-- Position `a` of group `g`. -/
def pos (g : Fin 4) (a : Fin 256) : Fin 1024 := ⟨256 * g.val + a.val, by omega⟩

/-- A weighted sum over all 1024 positions is 1/256 of the plain sum over the group's 256 positions. -/
theorem sum_wgt_mul (g : Fin 4) (f : Fin 1024 → ℝ) :
    ∑ h : Fin 1024, wgt g h * f h = (1 / 256) * ∑ a : Fin 256, f (pos g a) := by
  unfold wgt
  simp only [ite_mul, zero_mul]
  rw [← Finset.sum_filter, Finset.mul_sum]
  refine Finset.sum_nbij' (fun h => (⟨h.val % 256, Nat.mod_lt _ (by norm_num)⟩ : Fin 256)) (fun a => pos g a) ?_ ?_ ?_ ?_ ?_
  · intro h _; exact Finset.mem_univ _
  · intro a _
    simp only [Finset.mem_filter, Finset.mem_univ, true_and, pos]
    have := a.isLt; omega
  · intro h hh
    simp only [Finset.mem_filter, Finset.mem_univ, true_and] at hh
    apply Fin.ext; simp only [pos]; omega
  · intro a _
    apply Fin.ext; simp only [pos]; have := a.isLt; omega
  · intro h hh
    simp only [Finset.mem_filter, Finset.mem_univ, true_and] at hh
    have e : pos g (⟨h.val % 256, Nat.mod_lt _ (by norm_num)⟩ : Fin 256) = h := by
      apply Fin.ext; simp only [pos]; omega
    rw [e]

/-- The two-matrix average of region (g, g') is the region's sum over 65536, over the reals. -/
theorem pool_real (x : Fin 1024 → Fin 1024 → ℝ) (g g' : Fin 4) :
    ∑ w : Fin 1024, (∑ h : Fin 1024, wgt g h * x h w) * wgt g' w
      = (∑ a : Fin 256, ∑ b : Fin 256, x (pos g a) (pos g' b)) / 65536 := by
  have h1 : ∀ w : Fin 1024, (∑ h : Fin 1024, wgt g h * x h w) * wgt g' w
      = wgt g' w * ((1 / 256) * ∑ a : Fin 256, x (pos g a) w) := fun w => by
    rw [sum_wgt_mul g (fun h => x h w), mul_comm]
  rw [Finset.sum_congr rfl (fun w _ => h1 w), sum_wgt_mul g' (fun w => (1 / 256) * ∑ a : Fin 256, x (pos g a) w)]
  rw [← Finset.mul_sum, Finset.sum_comm]
  ring

/-- A finite sum of real numbers read in the extended reals is the sum of their readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over the extended reals, for a plane all of whose entries are real numbers: the host's quotient by the
    real 65536 of the region's sum (taken from the initial value 0) is the two-matrix average. -/
theorem pool_ereal (X : Fin 1024 → Fin 1024 → EReal) (hX : ∀ h w, ∃ r : ℝ, X h w = (r : EReal)) (g g' : Fin 4) :
    ∑ w : Fin 1024, (∑ h : Fin 1024, ((wgt g h : ℝ) : EReal) * X h w) * ((wgt g' w : ℝ) : EReal)
      = Ideal.div (0 + ∑ a : Fin 256, ∑ b : Fin 256, X (pos g a) (pos g' b)) ((65536 : ℝ) : EReal) := by
  choose x hx using hX
  simp only [hx]
  rw [Ideal.div_coe (by norm_num : (65536 : ℝ) ≠ 0), zero_add]
  simp only [← EReal.coe_mul, ← coe_sum]
  rw [pool_real x g g']
  congr 1
  ring

end Cert.Pool

end
-- ==== Proof.Tables.lean ====
/-
  The two weight matrices the kernel is launched with, read entry by entry as extended reals. The 4 × 1024 matrix
  holds at (g, h) the word of 1/256 when column h lies in row-group g (h / 256 = g) and the zero word elsewhere
  (TableWords.lean); the 1024 × 4 matrix is the same pattern transposed. The word `0x3B800000` denotes 2⁻⁸ = 1/256 and
  the zero word 0, so an entry is the averaging weight `wgt` of PoolLaw.lean.
-/
import proofs.«161409_j70557722739343_1_alg».proof.Proof.TableWords
import proofs.«161409_j70557722739343_1_alg».proof.Proof.PoolLaw
import Idealize.ShloMosaic.Lib.ValueIdx
import Idealize.ShloMosaic.PureOps.Ideal.Laws

noncomputable section

namespace Cert.Pool.Tables

open Idealize.ShloMosaic Idealize.ShloMosaic.ValueIdx Cert.KernelIdeal

/-- The word `0x3B800000` denotes 2⁻⁸ = 1/256. -/
theorem ofBits_inv256 : Ideal.ofBits .f32 0x3B800000#32 = ((1 / 256 : ℝ) : EReal) := by
  simp [Ideal.ofBits, Ideal.ieee, -EReal.coe_mul]; norm_num

/-- A weight word read as an extended real: the weight's value. -/
theorem ofBits_ite (p : Prop) [Decidable p] :
    Ideal.ofBits .f32 (if p then 0x3B800000#32 else 0#32) = (((if p then 1 / 256 else 0 : ℝ)) : EReal) := by
  split
  · exact ofBits_inv256
  · rw [Ideal.ofBits_zero_f32, EReal.coe_zero]

/-- The 4 × 1024 matrix at row `g`, column `h` is the averaging weight of group `g` at `h`. -/
theorem rowWeights_apply (g : Fin 4) (h : Fin 1024) :
    (FloatOps.ofBits (F := Ideal) .f32 (lit0 (S4x1024.rowMajor (ix2 g h))) : EReal) = ((wgt g h : ℝ) : EReal) := by
  have hh := h.isLt
  have hg := g.isLt
  have e : (S4x1024.rowMajor (ix2 g h)).val = g.val * 1024 + h.val := by
    rw [Shape.rowMajor_val_two]; rfl
  show Ideal.ofBits .f32 (lit0t (S4x1024.rowMajor (ix2 g h)).val) = _
  rw [e, rowTable_eq _ (by omega), ofBits_ite]
  unfold wgt
  have c : ((g.val * 1024 + h.val) % 1024 / 256 = (g.val * 1024 + h.val) / 1024) ↔ (h.val / 256 = g.val) := by omega
  simp only [c]

/-- The 1024 × 4 matrix at row `w`, column `g` is the averaging weight of group `g` at `w`. -/
theorem colWeights_apply (w : Fin 1024) (g : Fin 4) :
    (FloatOps.ofBits (F := Ideal) .f32 (lit1 (S1024x4.rowMajor (ix2 w g))) : EReal) = ((wgt g w : ℝ) : EReal) := by
  have hw := w.isLt
  have hg := g.isLt
  have e : (S1024x4.rowMajor (ix2 w g)).val = w.val * 4 + g.val := by
    rw [Shape.rowMajor_val_two]; rfl
  show Ideal.ofBits .f32 (lit1t (S1024x4.rowMajor (ix2 w g)).val) = _
  rw [e, colTable_eq _ (by omega), ofBits_ite]
  unfold wgt
  have d1 : (w.val * 4 + g.val) / 4 = w.val := by omega
  have d2 : (w.val * 4 + g.val) % 4 = g.val := by omega
  rw [d1, d2]

end Cert.Pool.Tables

end
-- ==== Proof.Means.lean ====
/-
  The 32 × 3 × 4 × 4 array of region means of a batch of images, in the two forms the two programs compute it, and
  their equality on a batch whose every entry is a real number. `pooled` is the kernel's: for image n, channel ch and
  region (g, g') the plane is multiplied by the row-group weights on the left and the column-group weights on the
  right. `regionMeans` is the reference's: the sum of the region's 256 × 256 entries, from the initial value 0, divided
  by 65536. The law of PoolLaw.lean joins them plane by plane.
-/
import proofs.«161409_j70557722739343_1_alg».proof.KernelIdeal
import proofs.«161409_j70557722739343_1_alg».proof.Proof.PoolLaw
import Idealize.ShloMosaic.Lib.ValueIdx

noncomputable section

namespace Cert.Pool

open Idealize.ShloMosaic Idealize.ShloMosaic.ValueIdx Cert.KernelIdeal

/-- The kernel's region mean of image `n`, channel `ch`, region `(g, g')`. -/
def pooledAt (A : S32x3x1024x1024.Idx → EReal) (n : Fin 32) (ch : Fin 3) (g g' : Fin 4) : EReal :=
  ∑ w : Fin 1024, (∑ h : Fin 1024, ((wgt g h : ℝ) : EReal) * A (ix4 n ch h w)) * ((wgt g' w : ℝ) : EReal)

/-- The reference's region mean of image `n`, channel `ch`, region `(g, g')`. -/
def regionMeanAt (A : S32x3x1024x1024.Idx → EReal) (n : Fin 32) (ch : Fin 3) (g g' : Fin 4) : EReal :=
  Ideal.div (0 + ∑ a : Fin 256, ∑ b : Fin 256, A (ix4 n ch (pos g a) (pos g' b))) ((65536 : ℝ) : EReal)

/-- The kernel's array of region means. -/
def pooled (A : S32x3x1024x1024.Idx → EReal) : S32x3x4x4.Idx → EReal := fun j => pooledAt A (j 0) (j 1) (j 2) (j 3)

/-- The reference's array of region means. -/
def regionMeans (A : S32x3x1024x1024.Idx → EReal) : S32x3x4x4.Idx → EReal := fun j => regionMeanAt A (j 0) (j 1) (j 2) (j 3)

/-- On a batch of real numbers the two arrays are equal. -/
theorem pooled_eq_regionMeans (A : S32x3x1024x1024.Idx → EReal) (hA : ∀ i, ∃ r : ℝ, A i = (r : EReal)) :
    pooled A = regionMeans A := by
  funext j
  exact pool_ereal (fun h w => A (ix4 (j 0) (j 1) h w)) (fun h w => hA _) (j 2) (j 3)

end Cert.Pool

end
-- ==== Proof.KernelArray.lean ====
/-
  The idealized kernel's result array after the pooling call. The call runs once per (image, channel) pair: at point
  t it is handed the whole row-group weight matrix, the whole column-group weight matrix and the one 1024 × 1024 plane
  of image n, channel ch, and writes back the one 4 × 4 block (n, ch, ·, ·) of the result. The two weight matrices are
  the literal tables the host lines before the call wrote, entry by entry the averaging weights. So what point t
  writes back is block t of `pooled` of the input batch, the 96 blocks tile the 32 × 3 × 4 × 4 result, and the array
  ends holding `pooled` of the batch.
-/
import proofs.«161409_j70557722739343_1_alg».proof.Proof.Gen.KernelIdeal.Frame
import proofs.«161409_j70557722739343_1_alg».proof.Proof.Payload
import proofs.«161409_j70557722739343_1_alg».proof.Proof.Tables
import proofs.«161409_j70557722739343_1_alg».proof.Proof.Means
import Idealize.ShloMosaic.Lib.Pipeline.Value
import Idealize.ShloMosaic.Lib.StableHlo.Run

set_option maxRecDepth 16384

noncomputable section

namespace Cert.Pool.KernelArray

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The weight matrices as the call finds them -/

/-- The 4 × 1024 matrix is the first literal table, entry by entry. -/
theorem V_rowWeights (c : Dev nD) :
    (V m c main_cst : S4x1024.Idx → EReal) = fun i => FloatOps.ofBits (F := Ideal) .f32 (lit0 (S4x1024.rowMajor i)) := by
  show StableHlo.after hostOps0 (fun b => m (c, b)) (Proc.devRef .tc main_cst) = _
  after_results
  rfl

/-- The 1024 × 4 matrix is the second literal table, entry by entry. -/
theorem V_colWeights (c : Dev nD) :
    (V m c main_cst_0 : S1024x4.Idx → EReal) = fun i => FloatOps.ofBits (F := Ideal) .f32 (lit1 (S1024x4.rowMajor i)) := by
  show StableHlo.after hostOps0 (fun b => m (c, b)) (Proc.devRef .tc main_cst_0) = _
  after_results
  rfl

/-! ## Where each window's block sits at a point -/

/-- The printed index maps over the 96 points: the weight matrices are always block (0, 0); the plane and the result
    block move together over (image, channel) and stay at 0 on the last two axes. -/
theorem idx_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_3.index t (0 : Fin 4) < 32 ∧ win0_3.index t (1 : Fin 4) < 3 :=
  (by decide +kernel : ∀ t : Fin grid0.N, _)

/-- Every (image, channel) pair is some point's. -/
theorem idx_onto : ∀ (n : Fin 32) (ch : Fin 3), ∃ t : Fin cfg0.N, win0_3.index t = ![n.val, ch.val, 0, 0] :=
  (by decide +kernel : ∀ (n : Fin 32) (ch : Fin 3), ∃ t : Fin grid0.N, win0_3.index t = ![n.val, ch.val, 0, 0])

/-! ## The blocks the body loads -/

/-- The row-group weights the body loads, at (g, h). -/
theorem read_rowWeights (c : Dev nD) (t : Fin cfg0.N) (g : Fin 4) (h : Fin 1024) :
    iblk m c 1 t (ix2 g h) = ((wgt g h : ℝ) : EReal) := by
  obtain ⟨e10, e11, -⟩ := idx_facts t
  have e : ((cfg0.win 1).blk t).view.emb (ix2 g h) = (ix2 g h : S4x1024.Idx) := by
    funext a; apply Fin.ext
    match a with
    | ⟨0, _⟩ => show win0_1.index t (0 : Fin 2) * 4 + 1 * g.val = g.val; omega
    | ⟨1, _⟩ => show win0_1.index t (1 : Fin 2) * 1024 + 1 * h.val = h.val; omega
  show V m c main_cst (((cfg0.win 1).blk t).view.emb (ix2 g h)) = _
  rw [e]
  exact (congrFun (V_rowWeights m c) (ix2 g h)).trans (Tables.rowWeights_apply g h)

/-- The column-group weights the body loads, at (w, g). -/
theorem read_colWeights (c : Dev nD) (t : Fin cfg0.N) (w : Fin 1024) (g : Fin 4) :
    iblk m c 2 t (ix2 w g) = ((wgt g w : ℝ) : EReal) := by
  obtain ⟨-, -, e20, e21, -⟩ := idx_facts t
  have e : ((cfg0.win 2).blk t).view.emb (ix2 w g) = (ix2 w g : S1024x4.Idx) := by
    funext a; apply Fin.ext
    match a with
    | ⟨0, _⟩ => show win0_2.index t (0 : Fin 2) * 1024 + 1 * w.val = w.val; omega
    | ⟨1, _⟩ => show win0_2.index t (1 : Fin 2) * 4 + 1 * g.val = g.val; omega
  show V m c main_cst_0 (((cfg0.win 2).blk t).view.emb (ix2 w g)) = _
  rw [e]
  exact (congrFun (V_colWeights m c) (ix2 w g)).trans (Tables.colWeights_apply w g)

/-- The plane the body loads at point t is plane (n, ch) of the batch, where (n, ch) is the result block's position. -/
theorem read_plane (c : Dev nD) (t : Fin cfg0.N) (n : Fin 32) (ch : Fin 3)
    (hn : win0_3.index t (0 : Fin 4) = n.val) (hc : win0_3.index t (1 : Fin 4) = ch.val) (h w : Fin 1024) :
    iblk m c 0 t (ix4 (0 : Fin 1) (0 : Fin 1) h w) = V m c main_arg0 (ix4 n ch h w) := by
  obtain ⟨-, -, -, -, e00, e01, e02, e03, -⟩ := idx_facts t
  have e : ((cfg0.win 0).blk t).view.emb (ix4 (0 : Fin 1) (0 : Fin 1) h w) = (ix4 n ch h w : S32x3x1024x1024.Idx) := by
    funext a; apply Fin.ext
    match a with
    | ⟨0, _⟩ => show win0_0.index t (0 : Fin 4) * 1 + 1 * 0 = n.val; omega
    | ⟨1, _⟩ => show win0_0.index t (1 : Fin 4) * 1 + 1 * 0 = ch.val; omega
    | ⟨2, _⟩ => show win0_0.index t (2 : Fin 4) * 1024 + 1 * h.val = h.val; omega
    | ⟨3, _⟩ => show win0_0.index t (3 : Fin 4) * 1024 + 1 * w.val = w.val; omega
  show V m c main_arg0 (((cfg0.win 0).blk t).view.emb (ix4 (0 : Fin 1) (0 : Fin 1) h w)) = _
  rw [e]

/-! ## What point t writes back -/

/-- Point t writes back block t of `pooled` of the batch as the call finds it. -/
theorem flushed_eq (c : Dev nD) (t : Fin cfg0.N) :
    (dats m 0 c).flushed 3 t = ((cfg0.win 3).blk t).view.read (Elt Ideal) (pooled (V m c main_arg0)) := by
  show (cfg0.win 3).cut (grid0.coords t) ((dats m 0 c).after 3 t) = _
  rw [after0_3]
  unfold out0_3
  rw [View.canon_unit_zero hz4]
  simp only [View.ld_unit_zero (S := S4x1024) hz2, View.ld_unit_zero (S := S1024x4) hz2,
    View.ld_unit_zero (S := S1x1x1024x1024) hz4]
  obtain ⟨-, -, -, -, -, -, -, -, e32, e33, l0, l1⟩ := idx_facts t
  funext y
  have y0 : (y 0).val < 1 := (y 0).isLt
  have y1 : (y 1).val < 1 := (y 1).isLt
  obtain ⟨g, g', rfl⟩ : ∃ g g' : Fin 4, y = ix4 (0 : Fin 1) (0 : Fin 1) g g' :=
    ⟨y 2, y 3, funext fun a => Fin.ext (by
      match a with
      | ⟨0, _⟩ => show (y 0).val = 0; omega
      | ⟨1, _⟩ => show (y 1).val = 0; omega
      | ⟨2, _⟩ => rfl
      | ⟨3, _⟩ => rfl)⟩
  have ej : ((cfg0.win 3).blk t).view.emb (ix4 (0 : Fin 1) (0 : Fin 1) g g')
      = (ix4 (⟨win0_3.index t (0 : Fin 4), l0⟩ : Fin 32) (⟨win0_3.index t (1 : Fin 4), l1⟩ : Fin 3) g g' : S32x3x4x4.Idx) := by
    funext a; apply Fin.ext
    match a with
    | ⟨0, _⟩ => show win0_3.index t (0 : Fin 4) * 1 + 1 * 0 = win0_3.index t (0 : Fin 4); omega
    | ⟨1, _⟩ => show win0_3.index t (1 : Fin 4) * 1 + 1 * 0 = win0_3.index t (1 : Fin 4); omega
    | ⟨2, _⟩ => show win0_3.index t (2 : Fin 4) * 4 + 1 * g.val = g.val; omega
    | ⟨3, _⟩ => show win0_3.index t (3 : Fin 4) * 4 + 1 * g'.val = g'.val; omega
  show k0_pay1 (iblk m c 1 t) (iblk m c 2 t) (iblk m c 0 t) (ix4 (0 : Fin 1) (0 : Fin 1) g g')
      = pooled (V m c main_arg0) (((cfg0.win 3).blk t).view.emb (ix4 (0 : Fin 1) (0 : Fin 1) g g'))
  rw [ej]
  show _ = pooledAt (V m c main_arg0) (⟨win0_3.index t (0 : Fin 4), l0⟩ : Fin 32) (⟨win0_3.index t (1 : Fin 4), l1⟩ : Fin 3) g g'
  refine (Payload.pay_apply (iblk m c 1 t) (iblk m c 2 t) (iblk m c 0 t) g g').trans ?_
  unfold pooledAt
  refine Finset.sum_congr rfl fun w _ => ?_
  refine congrArg₂ (· * ·) (Finset.sum_congr rfl fun h _ => ?_) (read_colWeights m c t w g')
  exact congrArg₂ (· * ·) (read_rowWeights m c t g h) (read_plane m c t _ _ rfl rfl h w)

/-! ## The blocks tile the result -/

/-- An index of the result is in point t's block iff each coordinate is in the block's range on its axis. -/
theorem mem_blk (t : Fin cfg0.N) (i : S32x3x4x4.Idx) :
    i ∈ ((cfg0.win 3).blk t).view.set ↔ ∀ a : Fin 4, win0_3.index t a * S1x1x4x4.size a ≤ (i a).val
      ∧ (i a).val < win0_3.index t a * S1x1x4x4.size a + S1x1x4x4.size a := by
  show i ∈ ((View.whole main_v0).slice (win0_3.rect t)).set ↔ _
  rw [View.set_slice_whole, Rect.mem_set_unit]
  exact Iff.rfl

/-- Every index of the result lies in the block of the point of its (image, channel) pair. -/
theorem cover (i : S32x3x4x4.Idx) :
    ∃ t : Fin cfg0.N, (cfg0.win 3).flush t = true ∧ i ∈ ((cfg0.win 3).blk t).view.set := by
  have i0 : (i 0).val < 32 := (i 0).isLt
  have i1 : (i 1).val < 3 := (i 1).isLt
  have i2 : (i 2).val < 4 := (i 2).isLt
  have i3 : (i 3).val < 4 := (i 3).isLt
  obtain ⟨t, ht⟩ := idx_onto ⟨(i 0).val, i0⟩ ⟨(i 1).val, i1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4 ≤ (i 2).val ∧ (i 2).val < win0_3.index t (2 : Fin 4) * 4 + 4; omega
  | ⟨3, _⟩ => show win0_3.index t (3 : Fin 4) * 4 ≤ (i 3).val ∧ (i 3).val < win0_3.index t (3 : Fin 4) * 4 + 4; omega

/-! ## The result array after the call -/

/-- After the call the result array holds `pooled` of the input batch as launched. -/
theorem final (c : Dev nD) :
    (dats m 0 c).arrAt 3 cfg0.N = pooled (m ((c : Thread nD τ).loc main_arg0)) := by
  rw [← V_main_arg0 m c]
  exact (dats m 0 c).arrAt_eq_of_cover 3 (pooled (V m c main_arg0)) (fun t _ => flushed_eq m c t) cover

end Cert.Pool.KernelArray

end
-- ==== Proof.Tail.lean ====
/-
  What both programs do with the 32 × 3 × 4 × 4 array of region means, as one function. The sixteen means of each
  (image, channel) pair are laid in a row; their sample standard deviation is taken with divisor 16 − 1 (the mean of
  the row is subtracted, the squares are summed, the sum is divided by 15, and the square root is taken; the guard
  "divisor positive, else not-a-number" that the library function carries is kept as written); the three channels'
  deviations are averaged; the score of an image is 1 / (1 + that average); and the result is the mean score of the 32
  images. Kernel and reference apply exactly these operations, with the same literals, to their region means, so the
  certificate only has to show the region means equal and never opens this function.
-/
import proofs.«161409_j70557722739343_1_alg».proof.KernelIdeal

noncomputable section

namespace Cert.Pool

open Idealize.ShloMosaic Cert.KernelIdeal

variable {F : FTy → Type} [FloatOps F]

/-- The consistency score of a whole batch from its region means. -/
def scoreOfMeans (x : FVec F S32x3x4x4 .f32) : FVec F S_ .f32 :=
  let hS : 0 < S_.numel := by decide
  let hr2 : S32x3x16.ReducesTo [2] S32x3 := by decide
  let hr1 : S32x3.ReducesTo [1] S32 := by decide
  let hr0 : S32.ReducesTo [0] S_ := by decide
  let rows : FVec F S32x3x16 .f32 := shapeCast S32x3x16 x (by decide)
  let zero : FVec F S_ .f32 := constant S_ .f32 0x00000000#32
  let sixteen : FVec F S_ .f32 := constant S_ .f32 0x41800000#32
  let rowMean : FVec F S32x3x1 .f32 :=
    Host.divf (broadcastInDim S32x3x1 ![0, 1] (by decide) (Host.reduceAdd rows zero hr2 hS))
      (broadcastInDim S32x3x1 ![] (by decide) sixteen)
  let dev : FVec F S32x3x16 .f32 := subf rows (broadcastInDim S32x3x16 ![0, 1, 2] (by decide) rowMean)
  let sq : FVec F S32x3x16 .f32 := mulf dev dev
  let divisor : FVec F S_ .f32 := subf sixteen (sitofp .f32 (constantI S_ 32 1#32))
  let variance : FVec F S32x3 .f32 :=
    Host.divf (Host.reduceAdd sq zero hr2 hS) (broadcastInDim S32x3 ![] (by decide) divisor)
  let guarded : FVec F S32x3 .f32 :=
    select (broadcastInDim S32x3 ![] (by decide) (cmpf .ogt divisor zero)) variance
      (broadcastInDim S32x3 ![] (by decide) (id (constant S_ .f32 0x7FC00000#32)))
  let deviation : FVec F S32x3 .f32 := Host.sqrt guarded
  let perImage : FVec F S32 .f32 :=
    Host.divf (Host.reduceAdd deviation zero hr1 hS) (broadcastInDim S32 ![] (by decide) (constant S_ .f32 0x40400000#32))
  let one : FVec F S32 .f32 := broadcastInDim S32 ![] (by decide) (constant S_ .f32 0x3F800000#32)
  let score : FVec F S32 .f32 := Host.divf one (addf one perImage)
  Host.divf (Host.reduceAdd score zero hr0 hS) (constant S_ .f32 0x42000000#32)

end Cert.Pool

end
-- ==== Proof.KernelTail.lean ====
/-
  The idealized kernel's host lines after the pooling call, read back: whatever the call leaves in its result array,
  the program's final scalar is the consistency score of that array.
-/
import proofs.«161409_j70557722739343_1_alg».proof.Proof.Gen.KernelIdeal.Frame
import proofs.«161409_j70557722739343_1_alg».proof.Proof.Tail
import Idealize.ShloMosaic.Lib.StableHlo.Run

noncomputable section

namespace Cert.Pool.KernelTail

open Idealize.ShloMosaic Idealize.ShloMosaic.TcCoe Idealize.SL.Sem Idealize.ShloMosaic.StableHlo
open Cert.KernelIdeal Cert.KernelIdeal.Gen

variable {F : FTy → Type} [FloatOps F]

set_option maxRecDepth 8192 in
/-- From any contents of the buffers, the forty host lines after the call end with the score of the call's result
    array in the program's result. -/
theorem result_eq (W : Valuation τ sig (Elt F)) :
    StableHlo.after (List.flatten [hostOps1 (F := F), hostOps1_1, hostOps1_2]) W (Proc.devRef .tc main_v11)
      = Cert.Pool.scoreOfMeans (W (Proc.devRef .tc main_v0)) := by
  simp only [hostOps1, hostOps1_1, hostOps1_2, List.flatten_cons, List.flatten_nil, List.append_nil, List.cons_append, List.nil_append]
  after_results
  rfl

end Cert.Pool.KernelTail

end
-- ==== Proof.KernelRun.lean ====
/-
  The idealized kernel program's run, read: it terminates with its result at the consistency score of `pooled` of
  the input batch, and the batch unchanged. The pooling call leaves `pooled` of the batch in its result array
  (KernelArray.lean), and the host lines after the call turn whatever that array holds into its score (KernelTail.lean).
-/
import proofs.«161409_j70557722739343_1_alg».proof.Proof.KernelArray
import proofs.«161409_j70557722739343_1_alg».proof.Proof.KernelTail

noncomputable section

namespace Cert.Pool.KernelRun

open Idealize.ShloMosaic Idealize.ShloMosaic.TcCoe Idealize.SL.Sem
open Cert.KernelIdeal Cert.KernelIdeal.Gen

/-- The program's result buffer is none of the call's four arrays. -/
theorem result_mem_rest : main_v11 ∈ Pipeline.restRefs sig (cfgs 0).spec :=
  Pipeline.mem_restRefs_of main_v11 rfl (by decide)

/-- Every weakly fair execution of the idealized kernel program terminates with the result at the score of the pooled
    region means of the batch as launched, and the batch unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Pool.scoreOfMeans (F := Ideal) (Cert.Pool.pooled (m ((c.tc : Thread nD τ).loc main_arg0)))
      ∧ r.2.mem ((c.tc : Thread nD τ).loc main_arg0) = m ((c.tc : Thread nD τ).loc main_arg0) := by
  refine (θ_run defs _ _).mono (fun r h c => ⟨?_, ?_⟩) (run_main m ρ)
  · refine ((h c).2 main_v11 result_mem_rest).trans ?_
    unfold Pipeline.afterTail₀
    rw [KernelTail.result_eq]
    refine congrArg (Cert.Pool.scoreOfMeans (F := Ideal)) ?_
    exact (Pipeline.withArrays_arr spec0 launch0.win.arr_inj c _ _ 3).trans (KernelArray.final m c)
  · exact ((h c).1 0).trans (((dats m 0 c).arrAt_in 0 rfl _).trans ((A_eq m c 0).trans (V_main_arg0 m c)))

end Cert.Pool.KernelRun

end
-- ==== Proof.RefRun.lean ====
/-
  The reference program run and read back. Its forty-six host operations, the three nested calls unfolded where they
  are made, form one straight line; every weakly fair execution of a straight line terminates with each buffer at the
  fold of the operations over the launch contents. Read at the result buffer that fold is the consistency score
  (Tail.lean) of what the first seven operations make of the argument: the batch regrouped into 256 × 256 regions,
  each region summed from zero, every sum divided by 65536. At the ideal values that array is the array of region
  means of Means.lean, index by index: the indices of the regrouped batch that reduce to (n, ch, g, g') are exactly
  (n, ch, g, a, g', b) for a, b below 256, and (n, ch, g, a, g', b) has the row-major position of
  (n, ch, 256 g + a, 256 g' + b).
-/
import proofs.«161409_j70557722739343_1_alg».proof.ReferenceIdeal
import proofs.«161409_j70557722739343_1_alg».proof.Proof.Gen.ReferenceIdeal
import proofs.«161409_j70557722739343_1_alg».proof.Proof.Tail
import proofs.«161409_j70557722739343_1_alg».proof.Proof.Means
import Idealize.ShloMosaic.Lib.StableHlo.Run
import Idealize.ShloMosaic.Lib.ValueIdx
import Idealize.ShloMosaic.Lib.ValueIdxRank6
import Idealize.ShloMosaic.Lib.IdealHost
import Idealize.ShloMosaic.Lib.Pipeline.Value
import Idealize.ShloMosaic.PureOps.Ideal.Laws

noncomputable section

namespace Cert.Pool.Ref

open Idealize.ShloMosaic Idealize.ShloMosaic.TcCoe Idealize.SL.Sem Idealize.ShloMosaic.StableHlo
open Cert.ReferenceIdeal Cert.ReferenceIdeal.Gen

section Program

variable {F : FTy → Type} [FloatOps F]

/-- @main's forty-six operations in order, the calls unfolded at their sites. The first eight regroup the batch into
    256 × 256 regions, sum each region from zero, divide by 65536, lay the sixteen means of an (image, channel) pair in
    a row, and name the integer one the deviation's divisor takes. The next twenty-three are the standard deviation of
    each row: the variance's nineteen, the guard's three, the square root. The last fifteen average the three
    channels' deviations, take the score 1 / (1 + average) of each image, and average the 32 scores. -/
abbrev ops : List (HloOp τ sig (Elt F)) :=
  [ reshape main_arg0 main_v0 rfl shapeCasts_S32x3x1024x1024_S32x3x4x256x4x256,
    nullary main_cst (constant S_ .f32 0x00000000#32),
    binary main_v0 main_cst main_v1 ((fun x v => Host.reduceAdd x v reducesTo_S32x3x4x256x4x256_S32x3x4x4_d3_5 h_S_) : (⟨S32x3x4x256x4x256, .f32⟩ : BufTy).Contents (Elt F) → (⟨S_, .f32⟩ : BufTy).Contents (Elt F) → (⟨S32x3x4x4, .f32⟩ : BufTy).Contents (Elt F)),
    nullary main_cst_0 (constant S_ .f32 0x47800000#32),
    unary main_cst_0 main_v2 (broadcastInDim S32x3x4x4 ![] bcast_S_S32x3x4x4 : (⟨S_, .f32⟩ : BufTy).Contents (Elt F) → (⟨S32x3x4x4, .f32⟩ : BufTy).Contents (Elt F)),
    binary main_v1 main_v2 main_v3 (Host.divf : (⟨S32x3x4x4, .f32⟩ : BufTy).Contents (Elt F) → (⟨S32x3x4x4, .f32⟩ : BufTy).Contents (Elt F) → (⟨S32x3x4x4, .f32⟩ : BufTy).Contents (Elt F)),
    reshape main_v3 main_v4 rfl shapeCasts_S32x3x4x4_S32x3x16,
    nullary main_c (constantI S_ 32 1#32),
    TRef.nullary main_call0.call0.cst (constant S_ .f32 0x00000000#32),
    TRef.binary (.of main_v4) main_call0.call0.cst main_call0.call0.v0 (fun x v => Host.reduceAdd x v reducesTo_S32x3x16_S32x3_d2 h_S_),
    TRef.unary main_call0.call0.v0 main_call0.call0.v1 (broadcastInDim S32x3x1 ![0, 1] bcast_S32x3_S32x3x1_0_1),
    TRef.nullary main_call0.call0.cst_0 (constant S_ .f32 0x41800000#32),
    TRef.unary main_call0.call0.cst_0 main_call0.call0.v2 (broadcastInDim S32x3x1 ![] bcast_S_S32x3x1),
    TRef.binary main_call0.call0.v1 main_call0.call0.v2 main_call0.call0.v3 Host.divf,
    TRef.unary main_call0.call0.v3 main_call0.call0.v4 (broadcastInDim S32x3x16 ![0, 1, 2] bcast_S32x3x1_S32x3x16_0_1_2),
    TRef.binary (.of main_v4) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x41800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S32x3x16_S32x3_d2 h_S_),
    TRef.unary main_call0.call0.v8 main_call0.call0.v10 (broadcastInDim S32x3 ![] bcast_S_S32x3),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S32x3 ![] bcast_S_S32x3),
    TRef.ternary main_call0.call0.v12 main_call0.call0.v11 main_call0.call0.call0.v1 main_call0.call0.call0.v2 (fun p a b => select (broadcastInDim S32x3 ![] bcast_S_S32x3 p) a b),
    TRef.unary main_call0.call0.call0.v2 main_call0.v1 Host.sqrt,
    nullary main_cst_1 (constant S_ .f32 0x00000000#32),
    binary main_v5 main_cst_1 main_v6 ((fun x v => Host.reduceAdd x v reducesTo_S32x3_S32_d1 h_S_) : (⟨S32x3, .f32⟩ : BufTy).Contents (Elt F) → (⟨S_, .f32⟩ : BufTy).Contents (Elt F) → (⟨S32, .f32⟩ : BufTy).Contents (Elt F)),
    nullary main_cst_2 (constant S_ .f32 0x40400000#32),
    unary main_cst_2 main_v7 (broadcastInDim S32 ![] bcast_S_S32 : (⟨S_, .f32⟩ : BufTy).Contents (Elt F) → (⟨S32, .f32⟩ : BufTy).Contents (Elt F)),
    binary main_v6 main_v7 main_v8 (Host.divf : (⟨S32, .f32⟩ : BufTy).Contents (Elt F) → (⟨S32, .f32⟩ : BufTy).Contents (Elt F) → (⟨S32, .f32⟩ : BufTy).Contents (Elt F)),
    nullary main_cst_3 (constant S_ .f32 0x3F800000#32),
    unary main_cst_3 main_v9 (broadcastInDim S32 ![] bcast_S_S32 : (⟨S_, .f32⟩ : BufTy).Contents (Elt F) → (⟨S32, .f32⟩ : BufTy).Contents (Elt F)),
    binary main_v9 main_v8 main_v10 (addf : (⟨S32, .f32⟩ : BufTy).Contents (Elt F) → (⟨S32, .f32⟩ : BufTy).Contents (Elt F) → (⟨S32, .f32⟩ : BufTy).Contents (Elt F)),
    nullary main_cst_4 (constant S_ .f32 0x3F800000#32),
    unary main_cst_4 main_v11 (broadcastInDim S32 ![] bcast_S_S32 : (⟨S_, .f32⟩ : BufTy).Contents (Elt F) → (⟨S32, .f32⟩ : BufTy).Contents (Elt F)),
    binary main_v11 main_v10 main_v12 (Host.divf : (⟨S32, .f32⟩ : BufTy).Contents (Elt F) → (⟨S32, .f32⟩ : BufTy).Contents (Elt F) → (⟨S32, .f32⟩ : BufTy).Contents (Elt F)),
    nullary main_cst_5 (constant S_ .f32 0x00000000#32),
    binary main_v12 main_cst_5 main_v13 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_6 (constant S_ .f32 0x42000000#32),
    binary main_v13 main_cst_6 main_v14 (Host.divf : (⟨S_, .f32⟩ : BufTy).Contents (Elt F) → (⟨S_, .f32⟩ : BufTy).Contents (Elt F) → (⟨S_, .f32⟩ : BufTy).Contents (Elt F)) ]

set_option maxRecDepth 2048 in
/-- @main is that straight line: the functions' definitions unfolded at their calls, both sides are one chain of steps
    once sequencing is reassociated. -/
theorem main_eq (c : Dev nD) : main (F := F) c = seq ops := by
  simp only [main, fn_std.body, fn_var.body, fn_where.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub .., reshape_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

/-- From any memory with zero counters every weakly fair execution of @main terminates with each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The region means as the reference computes them: the batch regrouped, each region summed from the zero word, the
    sums divided by the word of 65536. -/
def refMeansTerm (A : FVec F S32x3x1024x1024 .f32) : FVec F S32x3x4x4 .f32 :=
  Host.divf
    (Host.reduceAdd (shapeCast S32x3x4x256x4x256 A shapeCasts_S32x3x1024x1024_S32x3x4x256x4x256)
      (constant S_ .f32 0x00000000#32) reducesTo_S32x3x4x256x4x256_S32x3x4x4_d3_5 h_S_)
    (broadcastInDim S32x3x4x4 ![] bcast_S_S32x3x4x4 (constant S_ .f32 0x47800000#32))

set_option maxRecDepth 8192 in
/-- From any contents of the buffers the program's result is the score of the region means of its argument. -/
theorem result_eq (W : Valuation τ sig (Elt F)) :
    after (ops (F := F)) W (main_v14 : DevRef τ sig)
      = Cert.Pool.scoreOfMeans (refMeansTerm (W (main_arg0 : DevRef τ sig))) := by
  after_results
  rfl

set_option maxRecDepth 8192 in
/-- No operation writes the argument. -/
theorem arg0_eq (W : Valuation τ sig (Elt F)) :
    after (ops (F := F)) W (main_arg0 : DevRef τ sig) = W (main_arg0 : DevRef τ sig) := by
  after_results

end Program

section Value

open Idealize.ShloMosaic.ValueIdx
open scoped BigOperators

/-- The word 0x47800000 denotes the real number 65536 = 2 ^ 16. -/
theorem ofBits_65536 : Ideal.ofBits .f32 0x47800000#32 = ((65536 : ℝ) : EReal) := by
  simp [Ideal.ofBits, Ideal.ieee, -EReal.coe_mul]; norm_num

/-- Dropping the two within-region coordinates of a regrouped index leaves image, channel and region. -/
theorem drop_ix6 (n : Fin 32) (ch : Fin 3) (g : Fin 4) (a : Fin 256) (g' : Fin 4) (b : Fin 256) :
    reducesTo_S32x3x4x256x4x256_S32x3x4x4_d3_5.drop (ix6 n ch g a g' b) = ix4 n ch g g' := by
  funext e
  match e with
  | ⟨0, _⟩ => exact Fin.ext (Shape.ReducesTo.drop_apply_val_of_eq reducesTo_S32x3x4x256x4x256_S32x3x4x4_d3_5 (ix6 n ch g a g' b) ⟨0, by decide⟩ (0 : Fin 6))
  | ⟨1, _⟩ => exact Fin.ext (Shape.ReducesTo.drop_apply_val_of_eq reducesTo_S32x3x4x256x4x256_S32x3x4x4_d3_5 (ix6 n ch g a g' b) ⟨1, by decide⟩ (1 : Fin 6))
  | ⟨2, _⟩ => exact Fin.ext (Shape.ReducesTo.drop_apply_val_of_eq reducesTo_S32x3x4x256x4x256_S32x3x4x4_d3_5 (ix6 n ch g a g' b) ⟨2, by decide⟩ (2 : Fin 6))
  | ⟨3, _⟩ => exact Fin.ext (Shape.ReducesTo.drop_apply_val_of_eq reducesTo_S32x3x4x256x4x256_S32x3x4x4_d3_5 (ix6 n ch g a g' b) ⟨3, by decide⟩ (4 : Fin 6))

/-- A regrouped index that drops to (n, ch, g, g') is (n, ch, g, ·, g', ·) at its own within-region coordinates. -/
theorem eq_of_drop (n : Fin 32) (ch : Fin 3) (g g' : Fin 4) (i : S32x3x4x256x4x256.Idx)
    (hi : reducesTo_S32x3x4x256x4x256_S32x3x4x4_d3_5.drop i = ix4 n ch g g') :
    ix6 n ch g (i 3 : Fin 256) g' (i 5 : Fin 256) = i := by
  have h0 : (n : ℕ) = (i 0 : ℕ) := by
    have := Shape.ReducesTo.drop_apply_val_of_eq reducesTo_S32x3x4x256x4x256_S32x3x4x4_d3_5 i ⟨0, by decide⟩ (0 : Fin 6)
    rw [hi] at this; exact this
  have h1 : (ch : ℕ) = (i 1 : ℕ) := by
    have := Shape.ReducesTo.drop_apply_val_of_eq reducesTo_S32x3x4x256x4x256_S32x3x4x4_d3_5 i ⟨1, by decide⟩ (1 : Fin 6)
    rw [hi] at this; exact this
  have h2 : (g : ℕ) = (i 2 : ℕ) := by
    have := Shape.ReducesTo.drop_apply_val_of_eq reducesTo_S32x3x4x256x4x256_S32x3x4x4_d3_5 i ⟨2, by decide⟩ (2 : Fin 6)
    rw [hi] at this; exact this
  have h4 : (g' : ℕ) = (i 4 : ℕ) := by
    have := Shape.ReducesTo.drop_apply_val_of_eq reducesTo_S32x3x4x256x4x256_S32x3x4x4_d3_5 i ⟨3, by decide⟩ (4 : Fin 6)
    rw [hi] at this; exact this
  funext e
  match e with
  | ⟨0, _⟩ => exact Fin.ext h0
  | ⟨1, _⟩ => exact Fin.ext h1
  | ⟨2, _⟩ => exact Fin.ext h2
  | ⟨3, _⟩ => rfl
  | ⟨4, _⟩ => exact Fin.ext h4
  | ⟨5, _⟩ => rfl

/-- The host's sum over axes 3 and 5 of the regrouped batch, read at (n, ch, g, g'): the initial value plus the double
    sum over the region's 256 × 256 positions. -/
theorem hostReduceAdd_region (X : S32x3x4x256x4x256.Idx → EReal) (init : EReal) (n : Fin 32) (ch : Fin 3) (g g' : Fin 4) :
    Ideal.hostReduceAdd reducesTo_S32x3x4x256x4x256_S32x3x4x4_d3_5 X init (ix4 n ch g g')
      = init + ∑ a : Fin 256, ∑ b : Fin 256, X (ix6 n ch g a g' b) := by
  unfold Ideal.hostReduceAdd
  congr 1
  rw [← Fintype.sum_prod_type']
  refine Finset.sum_nbij' (fun i => ((i 3 : Fin 256), (i 5 : Fin 256))) (fun p => ix6 n ch g p.1 g' p.2) ?_ ?_ ?_ ?_ ?_
  · intro i _; exact Finset.mem_univ _
  · intro p _
    simp only [Finset.mem_filter, Finset.mem_univ, true_and]
    exact drop_ix6 n ch g p.1 g' p.2
  · intro i hi
    exact eq_of_drop n ch g g' i (Finset.mem_filter.mp hi).2
  · intro p _; rfl
  · intro i hi
    exact congrArg X (eq_of_drop n ch g g' i (Finset.mem_filter.mp hi).2).symm

/-- The regrouped batch at (n, ch, g, a, g', b) is the batch at row 256 g + a and column 256 g' + b of plane (n, ch):
    the two indices have the same row-major position. -/
theorem regroup_apply (A : S32x3x1024x1024.Idx → EReal) (n : Fin 32) (ch : Fin 3) (g : Fin 4) (a : Fin 256) (g' : Fin 4) (b : Fin 256) :
    shapeCast S32x3x4x256x4x256 A shapeCasts_S32x3x1024x1024_S32x3x4x256x4x256 (ix6 n ch g a g' b)
      = A (ix4 n ch (Cert.Pool.pos g a) (Cert.Pool.pos g' b)) := by
  refine shapeCast_apply A _ _ _ ?_
  rw [Shape.rowMajor_val_four, Shape.rowMajor_val_six]
  show (((n : ℕ) * 3 + (ch : ℕ)) * 1024 + (Cert.Pool.pos g a : ℕ)) * 1024 + (Cert.Pool.pos g' b : ℕ)
    = (((((n : ℕ) * 3 + (ch : ℕ)) * 4 + (g : ℕ)) * 256 + (a : ℕ)) * 4 + (g' : ℕ)) * 256 + (b : ℕ)
  simp only [Cert.Pool.pos]
  omega

/-- The reference's region mean at (n, ch, g, g'), at the ideal values. -/
theorem refMeansTerm_apply (A : S32x3x1024x1024.Idx → EReal) (n : Fin 32) (ch : Fin 3) (g g' : Fin 4) :
    refMeansTerm (F := Ideal) A (ix4 n ch g g') = Cert.Pool.regionMeanAt A n ch g g' := by
  unfold refMeansTerm Cert.Pool.regionMeanAt
  rw [hostDivf_apply, hostReduceAdd_apply, broadcastInDim_scalar_apply, hostReduceAdd_region]
  congr 1
  · congr 1
    · exact Ideal.ofBits_zero_f32
    · exact Finset.sum_congr rfl fun a _ => Finset.sum_congr rfl fun b _ => regroup_apply A n ch g a g' b
  · exact ofBits_65536

/-- The reference's array of region means, at the ideal values. -/
theorem refMeansTerm_eq (A : S32x3x1024x1024.Idx → EReal) : refMeansTerm (F := Ideal) A = Cert.Pool.regionMeans A := by
  funext j
  exact (congrArg (refMeansTerm (F := Ideal) A) (eq_ix4 j)).trans (refMeansTerm_apply A (j 0) (j 1) (j 2) (j 3))

end Value

/-- On every device, from any memory with zero counters, every weakly fair execution of the reference terminates with
    its result at the score of the batch's region means and its argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.Pool.scoreOfMeans (F := Ideal) (Cert.Pool.regionMeans (m ((c.tc : Thread nD τ).loc main_arg0)))
      ∧ r.2.mem ((c.tc : Thread nD τ).loc main_arg0) = m ((c.tc : Thread nD τ).loc main_arg0) :=
  (θ_run defs _ _).mono
    (fun _ h c => ⟨(h c main_v14).trans ((result_eq (launchContents m c)).trans
        (congrArg (Cert.Pool.scoreOfMeans (F := Ideal)) (refMeansTerm_eq _))),
      (h c main_arg0).trans (arg0_eq (launchContents m c))⟩)
    (run_main m ρ)

end Cert.Pool.Ref

end
-- ==== Proof.Finite.lean ====
import proofs.«161409_j70557722739343_1_alg».proof.Defs
import proofs.«161409_j70557722739343_1_alg».proof.Proof.Gen.Pre_finite_inputs
import proofs.«161409_j70557722739343_1_alg».proof.Proof.Gen.KernelIdeal
import Idealize.ShloMosaic.Lib.ReduceAll
import Idealize.ShloMosaic.Lib.ValueIdx
import Idealize.ShloMosaic.PureOps.Ideal.Laws

noncomputable section

namespace Cert.Pool.Finite

open Idealize.ShloMosaic Idealize.SL.Sem

/-- The f32 word with exponent all ones and significand zero denotes +∞. -/
theorem ofBits_inf : Ideal.ofBits .f32 0x7F800000#32 = (⊤ : EReal) := by
  simp [Ideal.ofBits, Ideal.ieee]

/-- An extended real whose absolute value max x (-x) lies strictly below +∞ is a real number:
    at -∞ and at +∞ the absolute value is +∞ itself. -/
theorem real_of_abs_lt (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | top => simp [Ideal.cmp] at hx
  | coe r => exact ⟨r, rfl⟩

/-- A shape of rank zero has exactly one index. -/
instance : Subsingleton Cert.Pre_finite_inputs.S_.Idx := ⟨fun a b => funext fun d => d.elim0⟩

theorem real_of_pre (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S32x3x1024x1024.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs.fn] at h0
  have h1 := Host.reduce_andi_all _ _ _ _ _ h0 i
  exact real_of_abs_lt _ h1

end Cert.Pool.Finite

end
-- ==== Proof.lean ====
/-
  Region-mean pooling by two small matrix products against the blocked mean, followed on both sides by the same
  standard-deviation score.

  The kernel averages each 256 × 256 region of a 1024 × 1024 image plane by multiplying the plane on the left by a
  4 × 1024 matrix and on the right by a 1024 × 4 matrix whose entries are 1/256 on a group's rows or columns and 0
  elsewhere; the reference reshapes the plane to 4 × 256 × 4 × 256, sums the two inner axes and divides by 65536. On
  a batch of real numbers the two are equal entry by entry: the zero weights remove every row and column outside the
  region and 1/256 · 1/256 = 1/65536 leaves the sum by distributivity (Proof/PoolLaw.lean, Proof/Means.lean). The
  precondition makes every input entry a real number (Proof/Finite.lean), which is what distributivity needs on the
  extended reals. Both programs then apply the same forty host operations to their 32 × 3 × 4 × 4 array of region
  means (Proof/Tail.lean), so their results are equal as soon as the region means are.

  The kernel side: the two weight matrices are literal tables, read entry by entry (Proof/TableWords.lean,
  Proof/Tables.lean); the body's two products at an index are the double sum (Proof/Payload.lean); the 96 blocks the
  call writes back tile its result, which ends at the pooled means (Proof/KernelArray.lean), and the host lines after
  the call give the score (Proof/KernelTail.lean, Proof/KernelRun.lean). The reference side: its run and the blocked
  mean read at an index (Proof/RefRun.lean). The frames of the two kernel programs are the generated ones; the
  reference's is its run with the result dropped; no rewrite was applied in idealizing, so that conjunct is trivial.
-/
import proofs.«161409_j70557722739343_1_alg».proof.Defs
import proofs.«161409_j70557722739343_1_alg».proof.Proof.Gen.Kernel
import proofs.«161409_j70557722739343_1_alg».proof.Proof.Gen.Kernel.Skeleton
import proofs.«161409_j70557722739343_1_alg».proof.Proof.Gen.Kernel.Launch
import proofs.«161409_j70557722739343_1_alg».proof.Proof.Gen.Kernel.Points
import proofs.«161409_j70557722739343_1_alg».proof.Proof.Gen.Kernel.Frame
import proofs.«161409_j70557722739343_1_alg».proof.Proof.Gen.KernelIdeal
import proofs.«161409_j70557722739343_1_alg».proof.Proof.Gen.KernelIdeal.Skeleton
import proofs.«161409_j70557722739343_1_alg».proof.Proof.Gen.KernelIdeal.Launch
import proofs.«161409_j70557722739343_1_alg».proof.Proof.Gen.KernelIdeal.Points
import proofs.«161409_j70557722739343_1_alg».proof.Proof.Gen.KernelIdeal.Frame
import proofs.«161409_j70557722739343_1_alg».proof.Proof.Gen.ReferenceIdeal
import proofs.«161409_j70557722739343_1_alg».proof.Proof.Gen.Pre_finite_inputs
import proofs.«161409_j70557722739343_1_alg».proof.Proof.KernelRun
import proofs.«161409_j70557722739343_1_alg».proof.Proof.RefRun
import proofs.«161409_j70557722739343_1_alg».proof.Proof.Finite
import proofs.«161409_j70557722739343_1_alg».proof.Proof.Means
import Idealize.ShloMosaic.Adequacy
import Idealize.ShloMosaic.Init

noncomputable section

namespace Cert.Proof

open Idealize.ShloMosaic Idealize.SL.Sem

/-- The word-level kernel program runs and keeps its input: the generated frame. -/
theorem frame_kernel : Cert.frame_Kernel := fun m ρ _ => Cert.Kernel.Gen.frame m ρ

/-- The idealized kernel program runs and keeps its input: the generated frame. -/
theorem frame_kernelIdeal : Cert.frame_KernelIdeal := fun m ρ _ => Cert.KernelIdeal.Gen.frame m ρ

/-- The idealized reference runs and keeps its input: its run, the result dropped. -/
theorem frame_referenceIdeal : Cert.frame_ReferenceIdeal := fun m ρ _ =>
  (θ_run Cert.ReferenceIdeal.defs _ _).mono (fun _ h c => (h c).2) (Cert.Pool.Ref.run m ρ)

/-- Idealizing the kernel rewrote nothing. -/
theorem preserves : Cert.preserves_Kernel_KernelIdeal := trivial

/-- From memories agreeing on the batch, whose entries the precondition makes real numbers, both programs end at the
    score of the same array of region means. -/
theorem algebraic : Cert.algebraic_KernelIdeal_ReferenceIdeal := by
  intro m ρ m' ρ' hpre hagree
  refine ⟨_, Cert.Pool.KernelRun.run m ρ, ?_⟩
  refine (θ_run Cert.ReferenceIdeal.defs _ _).mono (fun _ h c => ⟨(h c).1.trans ?_, (h c).2⟩) (Cert.Pool.Ref.run m' ρ')
  rw [hagree c, Cert.Pool.pooled_eq_regionMeans _ (Cert.Pool.Finite.real_of_pre m hpre c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
